-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x128 : Shape := ⟨2, ![256, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S50000x256 .f32) (main_arg1 : IVec S800000 32) (main_arg2 : IVec S800000 32) (main_arg3 : FVec F S256x128 .f32) (main_arg4 : FVec F S256x128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S50000x256 : Shape := ⟨2, ![50000, 256]⟩
abbrev S800000 : Shape := ⟨1, ![800000]⟩
abbrev S256x128 : Shape := ⟨2, ![256, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S2000x256 : Shape := ⟨2, ![2000, 256]⟩
abbrev S2000x1 : Shape := ⟨2, ![2000, 1]⟩
abbrev S2000x128 : Shape := ⟨2, ![2000, 128]⟩
abbrev S800000x128 : Shape := ⟨2, ![800000, 128]⟩

abbrev nBuf : Space → Nat
  | .hbm => 51
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x128, .f32⟩
  | .hbm, ⟨4, _⟩ => ⟨S256x128, .f32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S50000, .f32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S50000x1, .f32⟩
  | .hbm, ⟨18, _⟩ => ⟨S50000x1, .f32⟩
  | .hbm, ⟨19, _⟩ => ⟨S50000x128, .f32⟩
  | .hbm, ⟨20, _⟩ => ⟨S50000x128, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S256x128, .f32⟩
  | .local _ .vmem, ⟨4, _⟩ => ⟨S2000x1, .f32⟩
  | .local _ .vmem, ⟨5, _⟩ => ⟨S2000x1, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  scatter_S50000_S800000x1_S800000_n_0_0_1_wf : ScatterDims.WF S50000 S800000x1 S800000 [] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x256 : Shape := ⟨2, ![50000, 256]⟩
abbrev S800000 : Shape := ⟨1, ![800000]⟩
abbrev S256x128 : Shape := ⟨2, ![256, 128]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩

abbrev nBuf : Space → Nat
  | .hbm => 68
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x128, .f32⟩
  | .hbm, ⟨4, _⟩ => ⟨S256x128, .f32⟩
  | .hbm, ⟨5, _⟩ => ⟨S50000x128, .f32⟩
  | .hbm, ⟨6, _⟩ => ⟨S_, .f32⟩
  | .hbm, ⟨7, _⟩ => ⟨S50000x128, .f32⟩
  | .hbm, ⟨8, _⟩ => ⟨S50000x128, .f32⟩
  | .hbm, ⟨9, _⟩ => ⟨S50000x128, .f32⟩
  | .hbm, ⟨10, _⟩ => ⟨S_, .f32⟩
  | .hbm, ⟨11, _⟩ => ⟨S50000x128, .f32⟩
  | .hbm, ⟨12, _⟩ => ⟨S50000x128, .f32⟩
  | .hbm, ⟨13, _⟩ => ⟨S_, .f32⟩
  | .hbm, ⟨14, _⟩ => ⟨S50000x128, .f32⟩
  | .hbm, ⟨15, _⟩ => ⟨S50000x128, .f32⟩
  | .hbm, ⟨16, _⟩ => ⟨S50000x128, .f32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_call1_cst : Ref sig .tc := ⟨.hbm, 10, rfl⟩
abbrev main_call1_v0 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x256_S256x128_S50000x128_1_0_0_1_n_n_wf : DotDims.WF S50000x256 S256x128 S50000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.LibKeepdims.lean ====
/-
  Column forms of a kept unit axis, read at an index: a vector `[a]` viewed as the column `[a, 1]` reads its entry at
  the row, and a column `[a, 1]` broadcast along its unit axis to `[a, b]` reads, at `(p, c)`, the column's entry
  in row `p`. Together with the row forms (`[a]` as `[1, a]`, and `[1, b]` over `[a, b]`) these read a sum that
  keeps its reduced axis and is then broadcast against a two-dimensional tile.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A vector `[a]` cast to the column `[a, 1]` reads, at `(i, u)`, the vector at `i`: both have row-major position `i`,
    the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is
    kept (or is `0` already when `a = 1`), the unit axis reads its only coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.KernelPayload.lean ====
/-
  What the kernel body stores in a tile of 2000 nodes, read at a tile index `(p, j)`.

  Over the extended reals the narrowing of the operands to half precision is the identity, and a matrix product
  accumulated into a zero tile is, at `(p, j)`, the sum over `k` of `x[p, k] · W[k, j]`. So the first store holds
  `tileHidden x Wm p j · tileAtten x Wv p j · n[p]` and the second
  `tileHidden x Wv p j · tileAtten x Wv p j · tileAtten x Wv p j · (n[p] · n[p])`, with `n` the tile's column of
  normalisers, broadcast along the features.
-/
import proofs.«128113_j23785528886113_1_alg».proof.Proof.Gen.KernelIdeal.Skeleton
import proofs.«128113_j23785528886113_1_alg».proof.Proof.LibKeepdims
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx

/-! ## The tile's matrix product at an index -/

theorem lhs_tile_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_tile_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_tile_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_tile_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The product of a tile of features with a weight matrix, both narrowed (the identity here), accumulated into zero:
    at `(p, j)` the sum over the 256 input features. -/
theorem tile_dot (x : FVec Ideal S2000x256 .f32) (w : FVec Ideal S256x128 .f32) (p : Fin 2000) (j : Fin 128) :
    matmul dot_S2000x256_S256x128_S2000x128_1_0_0_1_n_n none (truncf .bf16 x bitsLt_bf16_f32) (truncf .bf16 w bitsLt_bf16_f32)
        (constant (F := Ideal) S2000x128 .f32 0x00000000#32) (ix2 p j)
      = ∑ k : Fin 256, x (ix2 p k) * w (ix2 k j) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p j) ((ValueIdx.contrEquiv1 dot_S2000x256_S256x128_S2000x128_1_0_0_1_n_n 256 rfl rfl).symm k) = ix2 p k := funext fun a => Fin.ext (by
    match a with
    | ⟨0, _⟩ => exact lhs_tile_0 _ _
    | ⟨1, _⟩ => exact (lhs_tile_1 _ _).trans hk)
  have er : dot_S2000x256_S256x128_S2000x128_1_0_0_1_n_n.rhsIdx (ix2 p j) ((ValueIdx.contrEquiv1 dot_S2000x256_S256x128_S2000x128_1_0_0_1_n_n 256 rfl rfl).symm k) = ix2 k j := funext fun a => Fin.ext (by
    match a with
    | ⟨0, _⟩ => exact (rhs_tile_0 _ _).trans hk
    | ⟨1, _⟩ => exact rhs_tile_1 _ _)
  rw [el, er]
  rfl

/-! ## The tile's rectified layers and attention -/

/-- Row `p` of the tile against column `j` of a weight matrix, rectified at zero. -/
def tileHidden (x : FVec Ideal S2000x256 .f32) (w : FVec Ideal S256x128 .f32) (p : Fin 2000) (j : Fin 128) : EReal :=
  max (∑ k : Fin 256, x (ix2 p k) * w (ix2 k j)) (Ideal.ofBits .f32 0x00000000#32)

/-- The exponential of minus the rectified variance. -/
def tileAtten (x : FVec Ideal S2000x256 .f32) (wv : FVec Ideal S256x128 .f32) (p : Fin 2000) (j : Fin 128) : EReal :=
  Ideal.exp (Ideal.ofBits .f32 0xBF800000#32 * tileHidden x wv p j)

/-- The rectified variance layer of the body. -/
theorem pay2_apply (x : FVec Ideal S2000x256 .f32) (wv : FVec Ideal S256x128 .f32) (p : Fin 2000) (j : Fin 128) :
    k0_pay2 (F := Ideal) x wv (ix2 p j) = tileHidden x wv p j := by
  unfold k0_pay2 k0_pay1
  refine (maximumf_apply _ _ (ix2 p j)).trans ?_
  refine (congrArg (fun s => max s _) (tile_dot x wv p j)).trans ?_
  rfl

/-- The attention of the body. -/
theorem pay3_apply (x : FVec Ideal S2000x256 .f32) (wv : FVec Ideal S256x128 .f32) (p : Fin 2000) (j : Fin 128) :
    k0_pay3 (F := Ideal) x wv (ix2 p j) = tileAtten x wv p j := by
  unfold k0_pay3
  show Ideal.exp (Ideal.ofBits .f32 0xBF800000#32 * k0_pay2 (F := Ideal) x wv (ix2 p j)) = _
  rw [pay2_apply]
  rfl

/-- The normaliser column as the body reads it: the cast to its own shape is the identity. -/
theorem pay4_eq (n : FVec Ideal S2000x1 .f32) : k0_pay4 (F := Ideal) n = n := by
  unfold k0_pay4
  exact shapeCast_self n _

/-! ## The two stored tiles -/

/-- The first store: the mean messages of the tile's nodes. -/
theorem pay5_apply (x : FVec Ideal S2000x256 .f32) (wm wv : FVec Ideal S256x128 .f32) (n : FVec Ideal S2000x1 .f32)
    (p : Fin 2000) (j : Fin 128) :
    k0_pay5 (F := Ideal) x wm wv n (ix2 p j) = tileHidden x wm p j * tileAtten x wv p j * n (ix2 p (0 : Fin 1)) := by
  unfold k0_pay5 k0_pay1
  show max (matmul dot_S2000x256_S256x128_S2000x128_1_0_0_1_n_n none (truncf .bf16 x bitsLt_bf16_f32) (truncf .bf16 wm bitsLt_bf16_f32)
        (constant (F := Ideal) S2000x128 .f32 0x00000000#32) (ix2 p j)) (Ideal.ofBits .f32 0x00000000#32)
      * k0_pay3 (F := Ideal) x wv (ix2 p j)
      * broadcastTo S2000x128 (k0_pay4 (F := Ideal) n) broadcasts_S2000x1_S2000x128 (ix2 p j) = _
  rw [tile_dot, pay3_apply, pay4_eq, Cert.LibKeepdims.broadcastTo_a1_ab_apply]
  rfl

/-- The second store: the variance messages of the tile's nodes. -/
theorem pay6_apply (x : FVec Ideal S2000x256 .f32) (wv : FVec Ideal S256x128 .f32) (n : FVec Ideal S2000x1 .f32)
    (p : Fin 2000) (j : Fin 128) :
    k0_pay6 (F := Ideal) x wv n (ix2 p j)
      = tileHidden x wv p j * tileAtten x wv p j * tileAtten x wv p j * (n (ix2 p (0 : Fin 1)) * n (ix2 p (0 : Fin 1))) := by
  unfold k0_pay6
  show k0_pay2 (F := Ideal) x wv (ix2 p j) * k0_pay3 (F := Ideal) x wv (ix2 p j) * k0_pay3 (F := Ideal) x wv (ix2 p j)
      * broadcastTo S2000x128 (mulf (k0_pay4 (F := Ideal) n) (k0_pay4 (F := Ideal) n)) broadcasts_S2000x1_S2000x128 (ix2 p j) = _
  rw [pay2_apply, pay3_apply, pay4_eq, Cert.LibKeepdims.broadcastTo_a1_ab_apply]
  rfl

end Cert.KernelIdeal.Payload

end
-- ==== Proof.Messages.lean ====
/-
  The two per-node message arrays of the robust graph convolution, as functions of the argument arrays, index by
  index over the extended reals.

  For node `r` and output feature `j`, with `x` the node features, `Wm`, `Wv` the two weight matrices and `n` the
  column of per-node normalisers (in-degree to the power -1/2):

    hidden x W r j  = max (∑ k, x[r, k] · W[k, j]) 0                      (a linear layer followed by a rectifier)
    atten  x Wv r j = exp (-1 · hidden x Wv r j)                           (the attention weight of the variance)
    meanMsg [r, j]  = hidden x Wm r j · atten x Wv r j · n[r]
    varMsg  [r, j]  = hidden x Wv r j · atten x Wv r j · atten x Wv r j · (n[r] · n[r])

  The products are bracketed to the left, as both programs compute them; no law of the extended reals beyond the
  definitions is needed to compare them, so nothing here asks for finiteness.
-/
import Idealize.ShloMosaic.PureOps.Ideal
import Idealize.ShloMosaic.Lib.ValueIdx

noncomputable section

namespace Cert.Messages

open Idealize.ShloMosaic Idealize.ShloMosaic.ValueIdx

/-- The node-feature array, a weight matrix, the column of normalisers, a message array. -/
abbrev Feat : Type := FVec Ideal ⟨2, ![50000, 256]⟩ .f32
abbrev Weight : Type := FVec Ideal ⟨2, ![256, 128]⟩ .f32
abbrev NormCol : Type := FVec Ideal ⟨2, ![50000, 1]⟩ .f32
abbrev Msg : Type := FVec Ideal ⟨2, ![50000, 128]⟩ .f32

/-- Row `r` of the features against column `j` of a weight matrix, rectified at zero. -/
def hidden (x : Feat) (w : Weight) (r : Fin 50000) (j : Fin 128) : EReal :=
  max (∑ k : Fin 256, x (ix2 r k) * w (ix2 k j)) (Ideal.ofBits .f32 0x00000000#32)

/-- The attention weight: the exponential of minus the rectified variance. -/
def atten (x : Feat) (wv : Weight) (r : Fin 50000) (j : Fin 128) : EReal :=
  Ideal.exp (Ideal.ofBits .f32 0xBF800000#32 * hidden x wv r j)

/-- The mean message of node `i 0` in feature `i 1`. -/
def meanMsg (x : Feat) (wm wv : Weight) (n : NormCol) : Msg := fun i =>
  hidden x wm (i 0) (i 1) * atten x wv (i 0) (i 1) * n (ix2 (i 0) (0 : Fin 1))

/-- The variance message of node `i 0` in feature `i 1`: the attention enters squared, and so does the normaliser. -/
def varMsg (x : Feat) (wv : Weight) (n : NormCol) : Msg := fun i =>
  hidden x wv (i 0) (i 1) * atten x wv (i 0) (i 1) * atten x wv (i 0) (i 1)
    * (n (ix2 (i 0) (0 : Fin 1)) * n (ix2 (i 0) (0 : Fin 1)))

end Cert.Messages

end
-- ==== Proof.TileMessages.lean ====
/-
  A stored tile against the message arrays: if row `p` of a feature tile is row `r` of the feature array, the weight
  tiles are the weight matrices in column `j`, and entry `p` of the normaliser tile is entry `r` of the normaliser
  column, then entry `(p, j)` of the first stored tile is `meanMsg` at `(r, j)` and entry `(p, j)` of the second is
  `varMsg` at `(r, j)`: each factor of the product is the same number, row for row.
  Stated for arbitrary arrays, so that the normaliser column (which the program computes from the indices) stays a
  variable here.
-/
import proofs.«128113_j23785528886113_1_alg».proof.Proof.KernelPayload
import proofs.«128113_j23785528886113_1_alg».proof.Proof.Messages

noncomputable section

namespace Cert.KernelIdeal.Payload

open Cert.KernelIdeal Cert.KernelIdeal.Gen Cert.Messages Idealize.ShloMosaic Idealize.ShloMosaic.ValueIdx

theorem tileHidden_eq (x : FVec Ideal S2000x256 .f32) (wb : FVec Ideal S256x128 .f32) (X : Feat) (W : Weight)
    (p : Fin 2000) (j : Fin 128) (r : Fin 50000) (j' : Fin 128)
    (hx : ∀ k, x (ix2 p k) = X (ix2 r k)) (hw : ∀ k, wb (ix2 k j) = W (ix2 k j')) :
    tileHidden x wb p j = Messages.hidden X W r j' := by
  unfold tileHidden Messages.hidden
  exact congrArg (fun s => max s _) (Finset.sum_congr rfl fun k _ => by rw [hx k, hw k])

theorem tileAtten_eq (x : FVec Ideal S2000x256 .f32) (wb : FVec Ideal S256x128 .f32) (X : Feat) (W : Weight)
    (p : Fin 2000) (j : Fin 128) (r : Fin 50000) (j' : Fin 128)
    (hx : ∀ k, x (ix2 p k) = X (ix2 r k)) (hw : ∀ k, wb (ix2 k j) = W (ix2 k j')) :
    tileAtten x wb p j = atten X W r j' := by
  unfold tileAtten atten
  rw [tileHidden_eq x wb X W p j r j' hx hw]

theorem mean_congr {a a' b b' n n' : EReal} (h1 : a = a') (h2 : b = b') (h3 : n = n') : a * b * n = a' * b' * n' := by
  rw [h1, h2, h3]
theorem var_congr {a a' b b' n n' : EReal} (h1 : a = a') (h2 : b = b') (h3 : n = n') :
    a * b * b * (n * n) = a' * b' * b' * (n' * n') := by
  rw [h1, h2, h3]

/-- Entry `(p, j)` of the first stored tile is the mean message at `i`, when the tiles are the arrays' rows and columns
    of `i`. -/
theorem pay5_eq_meanMsg (x : FVec Ideal S2000x256 .f32) (wm wv : FVec Ideal S256x128 .f32) (n : FVec Ideal S2000x1 .f32)
    (X : Feat) (Wm Wv : Weight) (N : NormCol) (p : Fin 2000) (j : Fin 128) (i : (⟨2, ![50000, 128]⟩ : Shape).Idx)
    (hx : ∀ k, x (ix2 p k) = X (ix2 (i 0) k))
    (hwm : ∀ k, wm (ix2 k j) = Wm (ix2 k (i 1))) (hwv : ∀ k, wv (ix2 k j) = Wv (ix2 k (i 1)))
    (hn : n (ix2 p (0 : Fin 1)) = N (ix2 (i 0) (0 : Fin 1))) :
    k0_pay5 (F := Ideal) x wm wv n (ix2 p j) = meanMsg X Wm Wv N i := by
  rw [pay5_apply]
  unfold meanMsg
  exact mean_congr (tileHidden_eq x wm X Wm p j (i 0) (i 1) hx hwm) (tileAtten_eq x wv X Wv p j (i 0) (i 1) hx hwv) hn

/-- Entry `(p, j)` of the second stored tile is the variance message at `i`, likewise. -/
theorem pay6_eq_varMsg (x : FVec Ideal S2000x256 .f32) (wv : FVec Ideal S256x128 .f32) (n : FVec Ideal S2000x1 .f32)
    (X : Feat) (Wv : Weight) (N : NormCol) (p : Fin 2000) (j : Fin 128) (i : (⟨2, ![50000, 128]⟩ : Shape).Idx)
    (hx : ∀ k, x (ix2 p k) = X (ix2 (i 0) k)) (hwv : ∀ k, wv (ix2 k j) = Wv (ix2 k (i 1)))
    (hn : n (ix2 p (0 : Fin 1)) = N (ix2 (i 0) (0 : Fin 1))) :
    k0_pay6 (F := Ideal) x wv n (ix2 p j) = varMsg X Wv N i := by
  rw [pay6_apply]
  unfold varMsg
  exact var_congr (tileHidden_eq x wv X Wv p j (i 0) (i 1) hx hwv) (tileAtten_eq x wv X Wv p j (i 0) (i 1) hx hwv) hn

end Cert.KernelIdeal.Payload

end
-- ==== Proof.KernelBlocks.lean ====
/-
  The two output arrays of the kernel after its 25 grid points.

  Point `t` handles the tile of nodes `2000·t … 2000·t + 1999`: its feature block and its normaliser block are rows
  `2000·t + p` of their arrays, both weight matrices are fetched whole, and each output block is rows `2000·t + p` of its
  array. So what point `t` writes back to the first output is the restriction of `meanMsg` (of the arrays as the region
  finds them) to block `t`, and to the second the restriction of `varMsg`; the 25 blocks cover the 50000 rows, so
  after the run the arrays ARE `meanMsg` and `varMsg`.
  A block read is a statement about the window alone, so each is stated for an arbitrary array.
-/
import proofs.«128113_j23785528886113_1_alg».proof.Proof.Gen.KernelIdeal.Frame
import proofs.«128113_j23785528886113_1_alg».proof.Proof.TileMessages
import Idealize.ShloMosaic.Lib.Pipeline.Value

set_option maxRecDepth 16384

noncomputable section

namespace Cert.KernelIdeal.Blocks

open Cert.KernelIdeal Cert.KernelIdeal.Gen Cert.KernelIdeal.Payload Cert.Messages
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

theorem origin : (![0, 0] : Fin 2 → Nat) = fun _ => 0 := funext fun a => by fin_cases a <;> rfl

/-! ## The arrays as the region finds them, and the blocks of a point, at their literal types -/

abbrev featArr (c : Dev nD) : Feat := V m c main_arg0
abbrev wmArr (c : Dev nD) : Weight := V m c main_arg3
abbrev wvArr (c : Dev nD) : Weight := V m c main_arg4
abbrev normArr (c : Dev nD) : NormCol := V m c main_v8

abbrev featBlk (c : Dev nD) (t : Fin cfg0.N) : FVec Ideal S2000x256 .f32 := iblk m c 0 t
abbrev wmBlk (c : Dev nD) (t : Fin cfg0.N) : FVec Ideal S256x128 .f32 := iblk m c 1 t
abbrev wvBlk (c : Dev nD) (t : Fin cfg0.N) : FVec Ideal S256x128 .f32 := iblk m c 2 t
abbrev normBlk (c : Dev nD) (t : Fin cfg0.N) : FVec Ideal S2000x1 .f32 := iblk m c 3 t

/-! ## The index maps over the grid -/

/-- The feature, normaliser and output blocks of a point sit at the same block row; the weights at block (0, 0). -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_4.index t (0 : Fin 2) ∧ win0_3.index t (1 : Fin 2) = 0
    ∧ win0_4.index t (1 : Fin 2) = 0
    ∧ win0_5.index t (0 : Fin 2) = win0_4.index t (0 : Fin 2) ∧ win0_5.index t (1 : Fin 2) = 0
    ∧ win0_4.index t (0 : Fin 2) ≤ 24 :=
  (by decide +kernel : ∀ t : Fin grid0.N, _)

/-- Every block row of the outputs is some point's. -/
theorem idx_onto : ∀ q : Fin 25, ∃ t : Fin cfg0.N, win0_4.index t = ![q.val, 0] ∧ win0_5.index t = ![q.val, 0] :=
  (by decide +kernel : ∀ q : Fin 25, ∃ t : Fin grid0.N, win0_4.index t = ![q.val, 0] ∧ win0_5.index t = ![q.val, 0])

/-! ## Where a point's blocks lie in their arrays -/

/-- Entry `(p, j)` of the first output's block at point `t` is entry `(r, j)` of the array, `r = 2000·(block row) + p`. -/
theorem out4_idx (t : Fin cfg0.N) (p : Fin 2000) (j : Fin 128) :
    ∃ r : Fin 50000, r.val = win0_4.index t (0 : Fin 2) * 2000 + p.val ∧ ((cfg0.win 4).blk t).view.emb (ix2 p j) = ix2 r j := by
  obtain ⟨-, -, -, -, -, -, -, -, e41, -, -, le4⟩ := idx_facts t
  have hp : p.val < 2000 := p.isLt
  refine ⟨⟨win0_4.index t (0 : Fin 2) * 2000 + p.val, by omega⟩, rfl, funext fun a => Fin.ext ?_⟩
  match a with
  | ⟨0, _⟩ => show win0_4.index t (0 : Fin 2) * 2000 + 1 * p.val = win0_4.index t (0 : Fin 2) * 2000 + p.val; omega
  | ⟨1, _⟩ => show win0_4.index t (1 : Fin 2) * 128 + 1 * j.val = j.val; omega

/-- The same for the second output. -/
theorem out5_idx (t : Fin cfg0.N) (p : Fin 2000) (j : Fin 128) :
    ∃ r : Fin 50000, r.val = win0_4.index t (0 : Fin 2) * 2000 + p.val ∧ ((cfg0.win 5).blk t).view.emb (ix2 p j) = ix2 r j := by
  obtain ⟨-, -, -, -, -, -, -, -, -, e50, e51, le4⟩ := idx_facts t
  have hp : p.val < 2000 := p.isLt
  refine ⟨⟨win0_4.index t (0 : Fin 2) * 2000 + p.val, by omega⟩, rfl, funext fun a => Fin.ext ?_⟩
  match a with
  | ⟨0, _⟩ => show win0_5.index t (0 : Fin 2) * 2000 + 1 * p.val = win0_4.index t (0 : Fin 2) * 2000 + p.val; omega
  | ⟨1, _⟩ => show win0_5.index t (1 : Fin 2) * 128 + 1 * j.val = j.val; omega

/-- Row `p` of the feature window's block at point `t` is row `r` of its array, whatever the array holds. -/
theorem read_feat (A : Feat) (t : Fin cfg0.N) (p : Fin 2000) (k : Fin 256) (r : Fin 50000)
    (hr : r.val = win0_4.index t (0 : Fin 2) * 2000 + p.val) :
    ((cfg0.win 0).blk t).view.read (Elt Ideal) A (ix2 p k) = A (ix2 r k) := by
  obtain ⟨e00, e01, -⟩ := idx_facts t
  rw [View.read_apply]
  refine congrArg A (funext fun a => Fin.ext ?_)
  match a with
  | ⟨0, _⟩ => show win0_0.index t (0 : Fin 2) * 2000 + 1 * p.val = r.val; omega
  | ⟨1, _⟩ => show win0_0.index t (1 : Fin 2) * 256 + 1 * k.val = k.val; omega

/-- The mean weights' window fetches its array whole. -/
theorem read_wm (A : Weight) (t : Fin cfg0.N) (k : Fin 256) (j : Fin 128) :
    ((cfg0.win 1).blk t).view.read (Elt Ideal) A (ix2 k j) = A (ix2 k j) := by
  obtain ⟨-, -, e10, e11, -⟩ := idx_facts t
  rw [View.read_apply]
  refine congrArg A (funext fun a => Fin.ext ?_)
  match a with
  | ⟨0, _⟩ => show win0_1.index t (0 : Fin 2) * 256 + 1 * k.val = k.val; omega
  | ⟨1, _⟩ => show win0_1.index t (1 : Fin 2) * 128 + 1 * j.val = j.val; omega

/-- The variance weights' window fetches its array whole. -/
theorem read_wv (A : Weight) (t : Fin cfg0.N) (k : Fin 256) (j : Fin 128) :
    ((cfg0.win 2).blk t).view.read (Elt Ideal) A (ix2 k j) = A (ix2 k j) := by
  obtain ⟨-, -, -, -, e20, e21, -⟩ := idx_facts t
  rw [View.read_apply]
  refine congrArg A (funext fun a => Fin.ext ?_)
  match a with
  | ⟨0, _⟩ => show win0_2.index t (0 : Fin 2) * 256 + 1 * k.val = k.val; omega
  | ⟨1, _⟩ => show win0_2.index t (1 : Fin 2) * 128 + 1 * j.val = j.val; omega

/-- Entry `p` of the normaliser window's block at point `t` is entry `r` of its column, whatever the column holds. -/
theorem read_norm (A : NormCol) (t : Fin cfg0.N) (p : Fin 2000) (r : Fin 50000)
    (hr : r.val = win0_4.index t (0 : Fin 2) * 2000 + p.val) :
    ((cfg0.win 3).blk t).view.read (Elt Ideal) A (ix2 p (0 : Fin 1)) = A (ix2 r (0 : Fin 1)) := by
  obtain ⟨-, -, -, -, -, -, e30, e31, -⟩ := idx_facts t
  rw [View.read_apply]
  refine congrArg A (funext fun a => Fin.ext ?_)
  match a with
  | ⟨0, _⟩ => show win0_3.index t (0 : Fin 2) * 2000 + 1 * p.val = r.val; omega
  | ⟨1, _⟩ => show win0_3.index t (1 : Fin 2) * 1 + 1 * 0 = 0; omega

/-! ## What a point writes back -/

/-- Point `t` writes back to the first output block `t` of the mean messages. -/
theorem flushed4_eq (c : Dev nD) (t : Fin cfg0.N) :
    (dats m 0 c).flushed 4 t
      = ((cfg0.win 4).blk t).view.read (Elt Ideal) (meanMsg (featArr m c) (wmArr m c) (wvArr m c) (normArr m c)) := by
  show (cfg0.win 4).cut (grid0.coords t) ((dats m 0 c).after 4 t) = _
  rw [after0_4]
  unfold out0_4
  rw [View.canon_unit_zero origin]
  simp only [View.ld_unit_zero (S := S2000x256) origin, View.ld_unit_zero (S := S256x128) origin, View.ld_unit_zero (S := S2000x1) origin]
  funext y
  obtain ⟨p, j, rfl⟩ : ∃ (p : Fin 2000) (j : Fin 128), y = ix2 p j := ⟨y 0, y 1, eq_ix2 y⟩
  rw [View.read_apply]
  obtain ⟨r, hr, hi⟩ := out4_idx t p j
  rw [hi]
  show k0_pay5 (F := Ideal) (featBlk m c t) (wmBlk m c t) (wvBlk m c t) (normBlk m c t) (ix2 p j) = _
  exact pay5_eq_meanMsg (featBlk m c t) (wmBlk m c t) (wvBlk m c t) (normBlk m c t)
    (featArr m c) (wmArr m c) (wvArr m c) (normArr m c) p j (ix2 r j)
    (fun k => read_feat (featArr m c) t p k r hr) (fun k => read_wm (wmArr m c) t k j) (fun k => read_wv (wvArr m c) t k j)
    (read_norm (normArr m c) t p r hr)

/-- Point `t` writes back to the second output block `t` of the variance messages. -/
theorem flushed5_eq (c : Dev nD) (t : Fin cfg0.N) :
    (dats m 0 c).flushed 5 t
      = ((cfg0.win 5).blk t).view.read (Elt Ideal) (varMsg (featArr m c) (wvArr m c) (normArr m c)) := by
  show (cfg0.win 5).cut (grid0.coords t) ((dats m 0 c).after 5 t) = _
  rw [after0_5]
  unfold out0_5
  rw [View.canon_unit_zero origin]
  simp only [View.ld_unit_zero (S := S2000x256) origin, View.ld_unit_zero (S := S256x128) origin, View.ld_unit_zero (S := S2000x1) origin]
  funext y
  obtain ⟨p, j, rfl⟩ : ∃ (p : Fin 2000) (j : Fin 128), y = ix2 p j := ⟨y 0, y 1, eq_ix2 y⟩
  rw [View.read_apply]
  obtain ⟨r, hr, hi⟩ := out5_idx t p j
  rw [hi]
  show k0_pay6 (F := Ideal) (featBlk m c t) (wvBlk m c t) (normBlk m c t) (ix2 p j) = _
  exact pay6_eq_varMsg (featBlk m c t) (wvBlk m c t) (normBlk m c t)
    (featArr m c) (wvArr m c) (normArr m c) p j (ix2 r j)
    (fun k => read_feat (featArr m c) t p k r hr) (fun k => read_wv (wvArr m c) t k j)
    (read_norm (normArr m c) t p r hr)

/-! ## The blocks cover the arrays -/

theorem mem_blk4 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v10_0).slice (win0_4.rect t)).set ↔ _
  rw [View.set_slice_whole, Rect.mem_set_unit]
  exact Iff.rfl

theorem mem_blk5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v10_1).slice (win0_5.rect t)).set ↔ _
  rw [View.set_slice_whole, Rect.mem_set_unit]
  exact Iff.rfl

/-- Row `i 0` lies in the block of the point whose block row is `i 0 / 2000`. -/
theorem cover4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht, -⟩ := idx_onto ⟨(i 0).val / 2000, by omega⟩
  have q0 : win0_4.index t (0 : Fin 2) = (i 0).val / 2000 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

theorem cover5 (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, -, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-! ## The arrays after the run -/

/-- The first output ends holding the mean messages. -/
theorem final4 (c : Dev nD) :
    (dats m 0 c).arrAt 4 cfg0.N = meanMsg (featArr m c) (wmArr m c) (wvArr m c) (normArr m c) :=
  (dats m 0 c).arrAt_eq_of_cover 4 _ (fun t _ => flushed4_eq m c t) cover4

/-- The second output ends holding the variance messages. -/
theorem final5 (c : Dev nD) :
    (dats m 0 c).arrAt 5 cfg0.N = varMsg (featArr m c) (wvArr m c) (normArr m c) :=
  (dats m 0 c).arrAt_eq_of_cover 5 _ (fun t _ => flushed5_eq m c t) cover5

end Cert.KernelIdeal.Blocks

end
-- ==== Proof.RefMessages.lean ====
/-
  The reference computes the two message arrays of `Messages.lean`.

  Its linear layers are `dot_general`s over the feature axis, read at an output index `(r, j)` as the sum over `k` of
  `x[r, k] · W[k, j]`; the rectifier is a maximum with a broadcast zero; the attention is the host exponential of the
  product with a broadcast `-1`; the normaliser column `[50000, 1]` is broadcast along the feature axis, so at `(r, j)` it
  reads row `r`. Chaining these readings, the stage `%19` is `meanMsg` and the stage `%23` is `varMsg`, of the arguments and
  of the reference's own normaliser column `%15`.
-/
import proofs.«128113_j23785528886113_1_alg».proof.Proof.Gen.ReferenceIdeal.Read
import proofs.«128113_j23785528886113_1_alg».proof.Proof.Messages

noncomputable section

namespace Cert.ReferenceIdeal.RefValue

open Cert.ReferenceIdeal Cert.ReferenceIdeal.Gen Cert.ReferenceIdeal.Read Idealize.ShloMosaic Idealize.ShloMosaic.ValueIdx
open Cert.Messages

/-! ## The index maps of the generated readings, in coordinates -/

theorem lidx_v0 (i : S50000x128.Idx) (k : Fin 256) : lidx_main_v0 i k = ix2 (i 0) k :=
  funext fun a => Fin.ext (by match a with | ⟨0, _⟩ => rfl | ⟨1, _⟩ => rfl)
theorem ridx_v0 (i : S50000x128.Idx) (k : Fin 256) : ridx_main_v0 i k = ix2 k (i 1) :=
  funext fun a => Fin.ext (by match a with | ⟨0, _⟩ => rfl | ⟨1, _⟩ => rfl)
theorem lidx_v2 (i : S50000x128.Idx) (k : Fin 256) : lidx_main_v2 i k = ix2 (i 0) k :=
  funext fun a => Fin.ext (by match a with | ⟨0, _⟩ => rfl | ⟨1, _⟩ => rfl)
theorem ridx_v2 (i : S50000x128.Idx) (k : Fin 256) : ridx_main_v2 i k = ix2 k (i 1) :=
  funext fun a => Fin.ext (by match a with | ⟨0, _⟩ => rfl | ⟨1, _⟩ => rfl)
/-- The broadcast of the normaliser column along the features reads row `i 0` of the column. -/
theorem idx_v18 (i : S50000x128.Idx) : idx_main_v18 i = ix2 (i 0) (0 : Fin 1) :=
  funext fun a => Fin.ext (by match a with | ⟨0, _⟩ => rfl | ⟨1, _⟩ => rfl)
theorem idx_v22 (i : S50000x128.Idx) : idx_main_v22 i = ix2 (i 0) (0 : Fin 1) :=
  funext fun a => Fin.ext (by match a with | ⟨0, _⟩ => rfl | ⟨1, _⟩ => rfl)

/-! ## The stages, read at an index -/

/-- The rectified mean layer `%1` at `i`. -/
theorem v1_apply (x0 : Feat) (x3 : Weight) (i : S50000x128.Idx) :
    val_main_v1 (F := Ideal) x0 x3 i = hidden x0 x3 (i 0) (i 1) := by
  rw [val_main_v1_apply, val_main_v0_apply, val_main_call0_v0_apply, val_main_call0_cst_apply]
  simp only [lidx_v0, ridx_v0, Ideal.maximumf_def, Ideal.ofBits_def]
  rfl

/-- The rectified variance layer `%3` at `i`. -/
theorem v3_apply (x0 : Feat) (x4 : Weight) (i : S50000x128.Idx) :
    val_main_v3 (F := Ideal) x0 x4 i = hidden x0 x4 (i 0) (i 1) := by
  rw [val_main_v3_apply, val_main_v2_apply, val_main_call1_v0_apply, val_main_call1_cst_apply]
  simp only [lidx_v2, ridx_v2, Ideal.maximumf_def, Ideal.ofBits_def]
  rfl

/-- The attention `%6` at `i`. -/
theorem v6_apply (x0 : Feat) (x4 : Weight) (i : S50000x128.Idx) :
    val_main_v6 (F := Ideal) x0 x4 i = atten x0 x4 (i 0) (i 1) := by
  rw [val_main_v6_apply, val_main_v5_apply, val_main_v4_apply, val_main_cst_apply, v3_apply]
  simp only [Ideal.hostUnary_exp_def, Ideal.mulf_def, Ideal.ofBits_def]
  rfl

/-! ## The two message stages -/

/-- The stage `%19` is the mean message of the arguments and the reference's normaliser column. -/
theorem v19_eq (x0 : Feat) (x2 : (⟨S800000, .i32⟩ : BufTy).Contents (Elt Ideal)) (x3 x4 : Weight) :
    val_main_v19 (F := Ideal) x0 x2 x3 x4 = meanMsg x0 x3 x4 (val_main_v15 (F := Ideal) x2) := by
  funext i
  rw [val_main_v19_apply, val_main_v17_apply, val_main_v18_apply, v1_apply, v6_apply, idx_v18]
  simp only [Ideal.mulf_def]
  rfl

/-- The stage `%23` is the variance message of the arguments and the reference's normaliser column. -/
theorem v23_eq (x0 : Feat) (x2 : (⟨S800000, .i32⟩ : BufTy).Contents (Elt Ideal)) (x4 : Weight) :
    val_main_v23 (F := Ideal) x0 x2 x4 = varMsg x0 x4 (val_main_v15 (F := Ideal) x2) := by
  funext i
  rw [val_main_v23_apply, val_main_v21_apply, val_main_v20_apply, val_main_v22_apply, val_main_v16_apply, v3_apply,
    v6_apply, idx_v22]
  simp only [Ideal.mulf_def]
  rfl

end Cert.ReferenceIdeal.RefValue

end
-- ==== Proof.KernelTail.lean ====
/-
  The idealized kernel program's two results, as the reference's own stages of the arguments.

  Before the region the host computes the column of normalisers from the destination indices alone (a scatter-add of
  ones, a maximum with one, a power -1/2), by the same operations as the reference: it IS the reference's stage `%15`,
  and its square the stage `%16`. The region leaves the two message arrays (`KernelBlocks.lean`), which are the
  reference's stages `%19` and `%23` (`RefMessages.lean`). After the region both programs gather the messages at the
  source indices, scatter-add them at the destination indices and scale by the normalisers, operation for operation:
  once the region's arrays and the normaliser column are rewritten to the reference's stages, the two tails are one
  term.
-/
import proofs.«128113_j23785528886113_1_alg».proof.Proof.Gen.KernelIdeal.Frame
import proofs.«128113_j23785528886113_1_alg».proof.Proof.KernelBlocks
import proofs.«128113_j23785528886113_1_alg».proof.Proof.RefMessages
import Idealize.ShloMosaic.Lib.StableHlo.Run

set_option maxRecDepth 16384

noncomputable section

namespace Cert.KernelIdeal.Tail

open Cert.KernelIdeal Cert.KernelIdeal.Gen Cert.KernelIdeal.Blocks Cert.Messages
open Idealize.ShloMosaic Idealize.ShloMosaic.TcCoe Idealize.SL.Sem Idealize.ShloMosaic.StableHlo
open Idealize.ShloMosaic.Pipeline (Dat Cfg Window)
open Cert.ReferenceIdeal.Read (val_main_v15 val_main_v16 val_main_v19 val_main_v23 val_main_v45 val_main_v47)

variable (m : (ℓ : Loc nD τ sig) → Buf (Elt Ideal) ℓ) (ρ : Dev nD → PrngReg)

/-! ## Before the region: the normalisers -/

/-- The normaliser column the region finds is the reference's stage `%15` of the destination indices. -/
theorem norm_col (c : Dev nD) :
    V m c main_v8 = val_main_v15 (F := Ideal) (m ((c : Thread nD τ).loc main_arg2)) := by
  show StableHlo.after hostOps0 (fun b => m (c, b)) (Proc.devRef .tc main_v8) = _
  after_results
  rfl

/-- Its square, computed before the region and read after it, is the reference's stage `%16`. -/
theorem norm_sq (c : Dev nD) :
    V0 m c (Proc.devRef .tc main_v9) = val_main_v16 (F := Ideal) (m ((c : Thread nD τ).loc main_arg2)) := by
  show StableHlo.after hostOps0 (fun b => m (c, b)) (Proc.devRef .tc main_v9) = _
  after_results
  rfl

/-! ## What the lines after the region read -/

/-- The source indices, untouched. -/
theorem tail_arg1 (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans
    (V_main_arg1 m c)

/-- The destination indices, untouched. -/
theorem tail_arg2 (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

/-- The squared normalisers: no array of the region, so as the host left them before it. -/
theorem tail_v9 (c : Dev nD) :
    Pipeline.withArrays (cfgs 0).spec c (V0 m c) (fun w => (dats m 0 c).arrAt w (cfgs 0).N) (Proc.devRef .tc main_v9)
      = val_main_v16 (F := Ideal) (m ((c : Thread nD τ).loc main_arg2)) :=
  (Pipeline.withArrays_of_ne _ c (V0 m c) _ main_v9 (by exact (by decide : ∀ w, Pipeline.arrRef spec0 w ≠ main_v9))).trans
    (norm_sq m c)

/-- The normaliser column: an input array of the region, which leaves it as it found it. -/
theorem tail_v8 (c : Dev nD) :
    Pipeline.withArrays (cfgs 0).spec c (V0 m c) (fun w => (dats m 0 c).arrAt w (cfgs 0).N) (Proc.devRef .tc main_v8)
      = val_main_v15 (F := Ideal) (m ((c : Thread nD τ).loc main_arg2)) :=
  (Pipeline.withArrays_arr spec0 launch0.win.arr_inj c _ _ 3).trans
    (((dats m 0 c).arrAt_in 3 rfl _).trans ((A_eq m c 3).trans (norm_col m c)))

/-- The region's first output: the mean messages, which are the reference's stage `%19`. -/
theorem tail_mean (c : Dev nD) :
    Pipeline.withArrays (cfgs 0).spec c (V0 m c) (fun w => (dats m 0 c).arrAt w (cfgs 0).N) (Proc.devRef .tc main_v10_0)
      = val_main_v19 (F := Ideal) (m ((c : Thread nD τ).loc main_arg0)) (m ((c : Thread nD τ).loc main_arg2))
          (m ((c : Thread nD τ).loc main_arg3)) (m ((c : Thread nD τ).loc main_arg4)) := by
  refine (Pipeline.withArrays_arr spec0 launch0.win.arr_inj c _ _ 4).trans ((final4 m c).trans ?_)
  rw [Cert.ReferenceIdeal.RefValue.v19_eq]
  show meanMsg (V m c main_arg0) (V m c main_arg3) (V m c main_arg4) (V m c main_v8) = _
  rw [V_main_arg0, V_main_arg3, V_main_arg4, norm_col]

/-- The region's second output: the variance messages, which are the reference's stage `%23`. -/
theorem tail_var (c : Dev nD) :
    Pipeline.withArrays (cfgs 0).spec c (V0 m c) (fun w => (dats m 0 c).arrAt w (cfgs 0).N) (Proc.devRef .tc main_v10_1)
      = val_main_v23 (F := Ideal) (m ((c : Thread nD τ).loc main_arg0)) (m ((c : Thread nD τ).loc main_arg2))
          (m ((c : Thread nD τ).loc main_arg4)) := by
  refine (Pipeline.withArrays_arr spec0 launch0.win.arr_inj c _ _ 5).trans ((final5 m c).trans ?_)
  rw [Cert.ReferenceIdeal.RefValue.v23_eq]
  show varMsg (V m c main_arg0) (V m c main_arg4) (V m c main_v8) = _
  rw [V_main_arg0, V_main_arg4, norm_col]

/-! ## The two results -/

set_option maxHeartbeats 8000000 in
/-- The first result is the reference's first result stage of the arguments. -/
theorem result_mean (c : Dev nD) :
    Pipeline.afterTail₀ cfgs (dats m) 0 (V0 m) [hostOps1] c main_v32
      = val_main_v45 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  show StableHlo.after hostOps1 _ (Proc.devRef .tc main_v32) = _
  after_results
  rw [tail_arg1, tail_arg2, tail_v8, tail_mean]
  rfl

set_option maxHeartbeats 8000000 in
/-- The second result is the reference's second result stage of the arguments. -/
theorem result_var (c : Dev nD) :
    Pipeline.afterTail₀ cfgs (dats m) 0 (V0 m) [hostOps1] c main_v34
      = val_main_v47 (F := Ideal) (m ((c : Thread nD τ).loc main_arg0)) (m ((c : Thread nD τ).loc main_arg1))
          (m ((c : Thread nD τ).loc main_arg2)) (m ((c : Thread nD τ).loc main_arg4)) := by
  unfold Pipeline.afterTail₀
  show StableHlo.after hostOps1 _ (Proc.devRef .tc main_v34) = _
  after_results
  rw [tail_arg1, tail_arg2, tail_v9, tail_var]
  rfl

/-! ## The run, read -/

/-- The frame run re-posted: each result at the reference's stage of the arguments, the arguments unchanged. -/
theorem run : θ_run defs (onTc (τ := τ) (main (F := Ideal))) ⟨m, fun _ => 0, ρ⟩ fun r => ∀ c : Dev nD,
      r.2.mem ((c.tc : Thread nD τ).loc main_v32)
        = val_main_v45 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_v34)
        = val_main_v47 (F := Ideal) (m ((c : Thread nD τ).loc main_arg0)) (m ((c : Thread nD τ).loc main_arg1))
            (m ((c : Thread nD τ).loc main_arg2)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v32 (Pipeline.mem_restRefs_of main_v32 (by decide) (by decide))).trans (result_mean m c),
      ((h c).2 main_v34 (Pipeline.mem_restRefs_of main_v34 (by decide) (by decide))).trans (result_var m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c)))⟩)
    (run_main m ρ)

end Cert.KernelIdeal.Tail

end
-- ==== Proof.lean ====
/-
  A robust graph convolution: per-node mean and variance messages, aggregated along the edges.

  Both programs first count each node's incoming edges (a scatter-add of ones at the destination indices), take the
  maximum with one and raise it to the power -1/2: the normaliser column `n`. The messages of node `r` in feature `j`
  are `meanMsg = hidden x Wm · atten x Wv · n[r]` and `varMsg = hidden x Wv · atten x Wv · atten x Wv · (n[r] · n[r])`, with
  `hidden x W r j = max (∑ k, x[r, k] · W[k, j]) 0` and `atten = exp (-1 · hidden x Wv)` (`Proof/Messages.lean`). The
  reference computes them on the host as whole arrays (`Proof/RefMessages.lean`); the kernel program computes them in
  one gridded kernel, 2000 nodes per grid point, with the operands narrowed to half precision, which over the
  extended reals is the identity (`Proof/KernelPayload.lean`, `Proof/TileMessages.lean`, `Proof/KernelBlocks.lean`). Both
  programs then gather the messages at the source indices, scatter-add them at the destination indices and scale by
  `n` and `n · n`, operation for operation (`Proof/KernelTail.lean`).

  So the two results are equal index by index with no algebra beyond the definitions: the same products in the same
  bracketing on both sides, and a matrix product that is the same sum over the 256 input features. The precondition
  (finite inputs) is not used for the values. The three frames are the generated ones (the reference's is its run with
  the results dropped), and the idealization rewrote nothing.
-/
import proofs.«128113_j23785528886113_1_alg».proof.Defs
import proofs.«128113_j23785528886113_1_alg».proof.Proof.Gen.Kernel
import proofs.«128113_j23785528886113_1_alg».proof.Proof.Gen.Kernel.Skeleton
import proofs.«128113_j23785528886113_1_alg».proof.Proof.Gen.Kernel.Launch
import proofs.«128113_j23785528886113_1_alg».proof.Proof.Gen.Kernel.Points
import proofs.«128113_j23785528886113_1_alg».proof.Proof.Gen.Kernel.Frame
import proofs.«128113_j23785528886113_1_alg».proof.Proof.Gen.KernelIdeal
import proofs.«128113_j23785528886113_1_alg».proof.Proof.Gen.KernelIdeal.Skeleton
import proofs.«128113_j23785528886113_1_alg».proof.Proof.Gen.KernelIdeal.Launch
import proofs.«128113_j23785528886113_1_alg».proof.Proof.Gen.KernelIdeal.Points
import proofs.«128113_j23785528886113_1_alg».proof.Proof.Gen.KernelIdeal.Frame
import proofs.«128113_j23785528886113_1_alg».proof.Proof.Gen.ReferenceIdeal
import proofs.«128113_j23785528886113_1_alg».proof.Proof.Gen.Pre_finite_inputs
import proofs.«128113_j23785528886113_1_alg».proof.Proof.Gen.ReferenceIdeal.Run
import proofs.«128113_j23785528886113_1_alg».proof.Proof.Gen.ReferenceIdeal.Read
import Idealize.ShloMosaic.Adequacy
import Idealize.ShloMosaic.Init
import proofs.«128113_j23785528886113_1_alg».proof.Proof.KernelTail

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the reference's two result stages of the (agreeing) arguments: the kernel program by
    `Tail.run`, the reference by its own run. -/
theorem algebraic : Cert.algebraic_KernelIdeal_ReferenceIdeal := by
  intro m ρ m' ρ' _ hagree
  refine ⟨_, _, Cert.KernelIdeal.Tail.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1, (hagree c).2.2.2.2]
    exact Cert.ReferenceIdeal.Read.val_main_v45_eq _ _ _ _ _
  · rw [(hagree c).1, (hagree c).2.1, (hagree c).2.2.1, (hagree c).2.2.2.2]
    exact Cert.ReferenceIdeal.Read.val_main_v47_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
